-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  main_v38

def fn_part1 {F : FTy → Type} [FloatOps F] (main_arg5 : FVec F S128x128 .f32) (main_arg6 : FVec F S128x64 .f32) (main_arg7 : FVec F S64 .f32) (main_arg8 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : FVec F S1600000 .f32) (main_arg2 : IVec S2x1600000 32) (main_arg3 : FVec F S128x128 .f32) (main_arg4 : FVec F S128 .f32) (main_arg5 : FVec F S128x128 .f32) (main_arg6 : FVec F S128x64 .f32) (main_arg7 : FVec F S64 .f32) (main_arg8 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S1600000 : Shape := ⟨1, ![1600000]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩
abbrev S100000x64 : Shape := ⟨2, ![100000, 64]⟩

abbrev nBuf : Space → Nat
  | .hbm => 65
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000, .f32⟩
  | .hbm, ⟨14, _⟩ => ⟨S1600000, .f32⟩
  | .hbm, ⟨15, _⟩ => ⟨S_, .f32⟩
  | .hbm, ⟨16, _⟩ => ⟨S1600000, .f32⟩
  | .hbm, ⟨17, _⟩ => ⟨S1600000, .f32⟩
  | .hbm, ⟨18, _⟩ => ⟨S_, .f32⟩
  | .hbm, ⟨19, _⟩ => ⟨S1600000, .f32⟩
  | .hbm, ⟨20, _⟩ => ⟨S1600000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x1, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S1600000x1, .f32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .i32⟩
  | .hbm, ⟨55, _⟩ => ⟨S_, .f32⟩
  | .hbm, ⟨56, _⟩ => ⟨S128x128, .f32⟩
  | .hbm, ⟨57, _⟩ => ⟨S_, .i32⟩
  | .hbm, ⟨58, _⟩ => ⟨S_, .f32⟩
  | .hbm, ⟨59, _⟩ => ⟨S128, .f32⟩
  | .hbm, ⟨60, _⟩ => ⟨S_, .i32⟩
  | .hbm, ⟨61, _⟩ => ⟨S_, .f32⟩
  | .hbm, ⟨62, _⟩ => ⟨S128x128, .f32⟩
  | .hbm, ⟨63, _⟩ => ⟨S100000x128, .f32⟩
  | .hbm, ⟨64, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_call0_v0 : Ref sig .tc := ⟨.hbm, 55, rfl⟩
abbrev main_v37 : Ref sig .tc := ⟨.hbm, 56, rfl⟩
abbrev main_c_7 : Ref sig .tc := ⟨.hbm, 57, rfl⟩
abbrev main_call1_v0 : Ref sig .tc := ⟨.hbm, 58, rfl⟩
abbrev main_v38 : Ref sig .tc := ⟨.hbm, 59, rfl⟩
abbrev main_c_8 : Ref sig .tc := ⟨.hbm, 60, rfl⟩
abbrev main_call2_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  pads_S128x64_S128x128_000_0640 : S128x64.Pads (![0, 0] : Fin 2 → Nat) ![0, 64] ![0, 0] S128x128
  h_S_ : 0 < S_.numel
  pads_S64_S128_0640 : S64.Pads (![0] : Fin 1 → Nat) ![64] ![0] S128
  shapeCasts_S128x128_S128x128 : S128x128.ShapeCasts S128x128
  shapeCasts_S128_S128 : S128.ShapeCasts S128
  slices_S100000x128_S100000x64_0_0 : S100000x128.Slices ![0, 0] S100000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000, .f32⟩
  | .hbm, ⟨14, _⟩ => ⟨S1600000, .f32⟩
  | .hbm, ⟨15, _⟩ => ⟨S_, .f32⟩
  | .hbm, ⟨16, _⟩ => ⟨S1600000, .f32⟩
  | .hbm, ⟨17, _⟩ => ⟨S1600000, .f32⟩
  | .hbm, ⟨18, _⟩ => ⟨S_, .f32⟩
  | .hbm, ⟨19, _⟩ => ⟨S1600000, .f32⟩
  | .hbm, ⟨20, _⟩ => ⟨S1600000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x1, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.BlockLayer.lean ====
/-
  One GraphConv linear layer on a block of 5000 node rows, read at an entry.

  Both pallas_calls of the kernel run the same arithmetic on a [5000, 128] block `A` of aggregated messages and
  the matching block `H` of node features: `A · W_rel + b_rel + H · W_root`, the first call followed by
  `max(·, 0)`. At the ideal values a matmul into a zero accumulator is the plain sum of products over the
  contracted axis, so entry (p, q) of the block is
      (∑ₖ A[p,k] · W_rel[k,q]) + b_rel[q] + (∑ₖ H[p,k] · W_root[k,q])
  (then its maximum with 0 for the first call). The bias is a [128] vector viewed as one row and repeated over
  the 5000 rows; the shape casts to the same shape are identities.
-/
import proofs.«402895_j81071802679527_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer

open Cert.KernelIdeal Cert.KernelIdeal.Gen Idealize.ShloMosaic Idealize.ShloMosaic.TcCoe Idealize.ShloMosaic.ValueIdx

/-! ## The block product's operand indices -/

theorem blockDot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blockDot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blockDot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blockDot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into the zero accumulator, at entry (p, q): row p of the left operand against
    column q of the right. -/
theorem blockMatmul_apply (lhs : FVec Ideal S5000x128 .f32) (rhs : FVec Ideal S128x128 .f32) (p : Fin 5000) (q : Fin 128) :
    matmul dot_S5000x128_S128x128_S5000x128_1_0_0_1_n_n (some .fp32) lhs rhs (constant (F := Ideal) S5000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact blockDot_lhs_0 _ _
    | ⟨1, _⟩ => exact (blockDot_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (blockDot_rhs_0 _ _).trans hk
    | ⟨1, _⟩ => exact blockDot_rhs_1 _ _)
  rw [el, er]

/-- The bias, a [128] vector viewed as one row and repeated over the block's rows, at entry (p, q) is its q-th entry. -/
theorem biasRows_apply (b : FVec Ideal S128 .f32) (p : Fin 5000) (q : Fin 128) :
    broadcastTo S5000x128 (shapeCast S1x128 b shapeCasts_S128_S1x128) broadcasts_S1x128_S5000x128 (ix2 p q) = b (ix1 q) := by
  rw [ValueIdx.broadcastTo_1b_ab_apply, ValueIdx.shapeCast_a_1a_apply]

/-! ## The two calls' stored values at an entry -/

/-- First call: `max(A · W_rel + b_rel + H · W_root, 0)` at entry (p, q). -/
theorem reluLayer_apply (A H : FVec Ideal S5000x128 .f32) (Wrel : FVec Ideal S128x128 .f32) (b : FVec Ideal S128 .f32) (Wroot : FVec Ideal S128x128 .f32)
    (p : Fin 5000) (q : Fin 128) :
    k0_pay1 (F := Ideal) A H Wrel b Wroot (ix2 p q)
      = max (((∑ k : Fin 128, A (ix2 p k) * Wrel (ix2 k q)) + b (ix1 q)) + ∑ k : Fin 128, H (ix2 p k) * Wroot (ix2 k q))
          (Ideal.ofBits .f32 0x00000000#32) := by
  unfold k0_pay1
  simp only [shapeCast_self, ValueIdx.maximumf_apply, ValueIdx.addf_apply, ValueIdx.broadcast_apply]
  rw [blockMatmul_apply, blockMatmul_apply, biasRows_apply]
  rfl

/-- Second call: `A · W_rel + b_rel + H · W_root` at entry (p, q). -/
theorem plainLayer_apply (A H : FVec Ideal S5000x128 .f32) (Wrel : FVec Ideal S128x128 .f32) (b : FVec Ideal S128 .f32) (Wroot : FVec Ideal S128x128 .f32)
    (p : Fin 5000) (q : Fin 128) :
    k1_pay1 (F := Ideal) A H Wrel b Wroot (ix2 p q)
      = ((∑ k : Fin 128, A (ix2 p k) * Wrel (ix2 k q)) + b (ix1 q)) + ∑ k : Fin 128, H (ix2 p k) * Wroot (ix2 k q) := by
  unfold k1_pay1
  simp only [shapeCast_self, ValueIdx.addf_apply]
  rw [blockMatmul_apply, blockMatmul_apply, biasRows_apply]

end Cert.KernelIdeal.Layer

end
-- ==== Proof.HiddenLayer.lean ====
/-
  The first pallas_call on whole arrays: the hidden layer h = max(aggr · W_rel1 + b_rel1 + x · W_root1, 0).

  The call runs over 20 grid points; point t is handed rows 5000·t … 5000·t + 4999 of the aggregated-message
  array and of the node-feature array, the two weight matrices and the bias whole, and writes back rows
  5000·t … 5000·t + 4999 of its result. Row n of the result is therefore computed by the one point n / 5000, from
  row n of the two row-blocked operands, and the 20 blocks tile the 100000 rows: the result array is ONE function
  of the operand arrays, entry by entry,
      h[n, j] = max((∑ₖ aggr[n,k] · W_rel[k,j]) + b_rel[j] + (∑ₖ x[n,k] · W_root[k,j]), 0),
  whatever the operand arrays are when the call is entered.
-/
import proofs.«402895_j81071802679527_4_alg».proof.Proof.Gen.KernelIdeal.Frame
import proofs.«402895_j81071802679527_4_alg».proof.Proof.BlockLayer

set_option maxRecDepth 16384

noncomputable section

namespace Cert.KernelIdeal.HiddenLayer

open Cert.KernelIdeal Cert.KernelIdeal.Gen Idealize.ShloMosaic Idealize.ShloMosaic.TcCoe Idealize.SL.Sem Idealize.ShloMosaic.ValueIdx
open Idealize.ShloMosaic.Pipeline (Dat)

/-- The layer on whole arrays, entry by entry. -/
def hidden (A H : FVec Ideal S100000x128 .f32) (Wrel : FVec Ideal S128x128 .f32) (b : FVec Ideal S128 .f32) (Wroot : FVec Ideal S128x128 .f32) :
    FVec Ideal S100000x128 .f32 := fun i =>
  max (((∑ k : Fin 128, A (ix2 (⟨(i 0).val, (i 0).isLt⟩ : Fin 100000) k) * Wrel (ix2 k (⟨(i 1).val, (i 1).isLt⟩ : Fin 128))) + b (ix1 (⟨(i 1).val, (i 1).isLt⟩ : Fin 128))) + (∑ k : Fin 128, H (ix2 (⟨(i 0).val, (i 0).isLt⟩ : Fin 100000) k) * Wroot (ix2 k (⟨(i 1).val, (i 1).isLt⟩ : Fin 128)))) (Ideal.ofBits .f32 0x00000000#32)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the 20 points: the row-blocked windows (aggregated messages, node features, result)
    sit at block (t, 0); the weights and the bias at block 0. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := Nat.lt_of_lt_of_eq t.isLt N_0

/-- Row p of point t's block is row 5000·t + p of the array. -/
def rowOf (t : Fin cfg0.N) (p : Fin 5000) : Fin 100000 := ⟨t.val * 5000 + p.val, by have := point_lt t; have := p.isLt; omega⟩

/-! ## The operands' blocks, read where they lie in their arrays -/

theorem aggrBlock (c : Dev nD) (t : Fin cfg0.N) (p : Fin 5000) (k : Fin 128) :
    iblk0 V c 0 t (ix2 p k) = V c main_v22 (ix2 (rowOf t p) k) := by
  obtain ⟨e0, e1, -⟩ := blockIndex t
  show V c main_v22 (((cfg0.win 0).blk t).view.emb (ix2 p k)) = V c main_v22 (ix2 (rowOf t p) k)
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem featBlock (c : Dev nD) (t : Fin cfg0.N) (p : Fin 5000) (k : Fin 128) :
    iblk0 V c 1 t (ix2 p k) = V c main_arg0 (ix2 (rowOf t p) k) := by
  obtain ⟨-, -, e0, e1, -⟩ := blockIndex t
  show V c main_arg0 (((cfg0.win 1).blk t).view.emb (ix2 p k)) = V c main_arg0 (ix2 (rowOf t p) k)
  refine congrArg _ (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

theorem relWeightBlock (c : Dev nD) (t : Fin cfg0.N) (k q : Fin 128) :
    iblk0 V c 2 t (ix2 k q) = V c main_arg3 (ix2 k q) := by
  obtain ⟨-, -, -, -, e0, e1, -⟩ := blockIndex t
  show V c main_arg3 (((cfg0.win 2).blk t).view.emb (ix2 k q)) = V c main_arg3 (ix2 k q)
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem biasBlock (c : Dev nD) (t : Fin cfg0.N) (q : Fin 128) :
    iblk0 V c 3 t (ix1 q) = V c main_arg4 (ix1 q) := by
  obtain ⟨-, -, -, -, -, -, e0, -⟩ := blockIndex t
  show V c main_arg4 (((cfg0.win 3).blk t).view.emb (ix1 q)) = V c main_arg4 (ix1 q)
  refine congrArg _ (funext fun a => Fin.ext ?_)
  match a with
  | ⟨0, _⟩ => show win0_3.index t (0 : Fin 1) * 128 + 1 * q.val = q.val; rw [e0]; omega

theorem rootWeightBlock (c : Dev nD) (t : Fin cfg0.N) (k q : Fin 128) :
    iblk0 V c 4 t (ix2 k q) = V c main_arg5 (ix2 k q) := by
  obtain ⟨-, -, -, -, -, -, -, e0, e1, -⟩ := blockIndex t
  show V c main_arg5 (((cfg0.win 4).blk t).view.emb (ix2 k q)) = V c main_arg5 (ix2 k q)
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Entry (p, q) of point t's result block lies at (5000·t + p, q) of the result array. -/
theorem resultBlock (t : Fin cfg0.N) (p : Fin 5000) (q : Fin 128) :
    ((cfg0.win 5).blk t).view.emb (ix2 p q) = ix2 (rowOf t p) q := by
  obtain ⟨-, -, -, -, -, -, -, -, -, e0, e1⟩ := blockIndex t
  refine funext fun a => Fin.ext ?_
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-! ## What a point writes back, and the whole array -/

/-- Point t writes back block t of the layer's whole-array function of the operand arrays as the call finds them. -/
theorem flushed_eq (c : Dev nD) (t : Fin cfg0.N) :
    (dat0 V c).flushed 5 t
      = ((cfg0.win 5).blk t).view.read (Elt Ideal) (hidden (V c main_v22) (V c main_arg0) (V c main_arg3) (V c main_arg4) (V c main_arg5)) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  funext j
  obtain ⟨p, q, rfl⟩ : ∃ (p : Fin 5000) (q : Fin 128), j = ix2 p q := ⟨j 0, j 1, eq_ix2 j⟩
  refine (Layer.reluLayer_apply (iblk0 V c 0 t) (iblk0 V c 1 t) (iblk0 V c 2 t) (iblk0 V c 3 t) (iblk0 V c 4 t) p q).trans ?_
  show _ = hidden (V c main_v22) (V c main_arg0) (V c main_arg3) (V c main_arg4) (V c main_arg5) (((cfg0.win 5).blk t).view.emb (ix2 p q))
  rw [resultBlock t p q]
  unfold hidden
  simp only [aggrBlock V c t p, featBlock V c t p, relWeightBlock V c t, biasBlock V c t, rootWeightBlock V c t]

/-- An index of the result array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- The 20 blocks of 5000 rows cover the 100000 rows: row n is in the block of point n / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  refine ⟨⟨(i 0).val / 5000, hN⟩, flush0_5 _, ?_⟩
  obtain ⟨-, -, -, -, -, -, -, -, -, e0, e1⟩ := blockIndex ⟨(i 0).val / 5000, hN⟩
  rw [mem_block]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e1]; omega

/-- THE RESULT ARRAY after the call: the layer's function of the operand arrays as the call finds them. -/
theorem result_eq (c : Dev nD) :
    (dat0 V c).arrAt 5 cfg0.N = hidden (V c main_v22) (V c main_arg0) (V c main_arg3) (V c main_arg4) (V c main_arg5) :=
  (dat0 V c).arrAt_eq_of_cover 5 _ (fun t _ => flushed_eq V c t) covered

end Cert.KernelIdeal.HiddenLayer

end
-- ==== Proof.OutputLayer.lean ====
/-
  The second pallas_call on whole arrays: the output layer out = aggr2 · W_rel2 + b_rel2 + h · W_root2 (weights and bias zero-padded to 128 columns by the host).

  The call runs over 20 grid points; point t is handed rows 5000·t … 5000·t + 4999 of the aggregated-message
  array and of the node-feature array, the two weight matrices and the bias whole, and writes back rows
  5000·t … 5000·t + 4999 of its result. Row n of the result is therefore computed by the one point n / 5000, from
  row n of the two row-blocked operands, and the 20 blocks tile the 100000 rows: the result array is ONE function
  of the operand arrays, entry by entry,
      out[n, j] = (∑ₖ aggr[n,k] · W_rel[k,j]) + b_rel[j] + (∑ₖ h[n,k] · W_root[k,j]),
  whatever the operand arrays are when the call is entered.
-/
import proofs.«402895_j81071802679527_4_alg».proof.Proof.Gen.KernelIdeal.Frame
import proofs.«402895_j81071802679527_4_alg».proof.Proof.BlockLayer

set_option maxRecDepth 16384

noncomputable section

namespace Cert.KernelIdeal.OutputLayer

open Cert.KernelIdeal Cert.KernelIdeal.Gen Idealize.ShloMosaic Idealize.ShloMosaic.TcCoe Idealize.SL.Sem Idealize.ShloMosaic.ValueIdx
open Idealize.ShloMosaic.Pipeline (Dat)

/-- The layer on whole arrays, entry by entry. -/
def output (A H : FVec Ideal S100000x128 .f32) (Wrel : FVec Ideal S128x128 .f32) (b : FVec Ideal S128 .f32) (Wroot : FVec Ideal S128x128 .f32) :
    FVec Ideal S100000x128 .f32 := fun i =>
  ((∑ k : Fin 128, A (ix2 (⟨(i 0).val, (i 0).isLt⟩ : Fin 100000) k) * Wrel (ix2 k (⟨(i 1).val, (i 1).isLt⟩ : Fin 128))) + b (ix1 (⟨(i 1).val, (i 1).isLt⟩ : Fin 128))) + (∑ k : Fin 128, H (ix2 (⟨(i 0).val, (i 0).isLt⟩ : Fin 100000) k) * Wroot (ix2 k (⟨(i 1).val, (i 1).isLt⟩ : Fin 128)))

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the 20 points: the row-blocked windows (aggregated messages, node features, result)
    sit at block (t, 0); the weights and the bias at block 0. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := Nat.lt_of_lt_of_eq t.isLt N_1

/-- Row p of point t's block is row 5000·t + p of the array. -/
def rowOf (t : Fin cfg1.N) (p : Fin 5000) : Fin 100000 := ⟨t.val * 5000 + p.val, by have := point_lt t; have := p.isLt; omega⟩

/-! ## The operands' blocks, read where they lie in their arrays -/

theorem aggrBlock (c : Dev nD) (t : Fin cfg1.N) (p : Fin 5000) (k : Fin 128) :
    iblk1 V c 0 t (ix2 p k) = V c main_v36 (ix2 (rowOf t p) k) := by
  obtain ⟨e0, e1, -⟩ := blockIndex t
  show V c main_v36 (((cfg1.win 0).blk t).view.emb (ix2 p k)) = V c main_v36 (ix2 (rowOf t p) k)
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem featBlock (c : Dev nD) (t : Fin cfg1.N) (p : Fin 5000) (k : Fin 128) :
    iblk1 V c 1 t (ix2 p k) = V c main_v23 (ix2 (rowOf t p) k) := by
  obtain ⟨-, -, e0, e1, -⟩ := blockIndex t
  show V c main_v23 (((cfg1.win 1).blk t).view.emb (ix2 p k)) = V c main_v23 (ix2 (rowOf t p) k)
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

theorem relWeightBlock (c : Dev nD) (t : Fin cfg1.N) (k q : Fin 128) :
    iblk1 V c 2 t (ix2 k q) = V c main_v37 (ix2 k q) := by
  obtain ⟨-, -, -, -, e0, e1, -⟩ := blockIndex t
  show V c main_v37 (((cfg1.win 2).blk t).view.emb (ix2 k q)) = V c main_v37 (ix2 k q)
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem biasBlock (c : Dev nD) (t : Fin cfg1.N) (q : Fin 128) :
    iblk1 V c 3 t (ix1 q) = V c main_v38 (ix1 q) := by
  obtain ⟨-, -, -, -, -, -, e0, -⟩ := blockIndex t
  show V c main_v38 (((cfg1.win 3).blk t).view.emb (ix1 q)) = V c main_v38 (ix1 q)
  refine congrArg _ (funext fun a => Fin.ext ?_)
  match a with
  | ⟨0, _⟩ => show win1_3.index t (0 : Fin 1) * 128 + 1 * q.val = q.val; rw [e0]; omega

theorem rootWeightBlock (c : Dev nD) (t : Fin cfg1.N) (k q : Fin 128) :
    iblk1 V c 4 t (ix2 k q) = V c main_v39 (ix2 k q) := by
  obtain ⟨-, -, -, -, -, -, -, e0, e1, -⟩ := blockIndex t
  show V c main_v39 (((cfg1.win 4).blk t).view.emb (ix2 k q)) = V c main_v39 (ix2 k q)
  refine congrArg _ (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- Entry (p, q) of point t's result block lies at (5000·t + p, q) of the result array. -/
theorem resultBlock (t : Fin cfg1.N) (p : Fin 5000) (q : Fin 128) :
    ((cfg1.win 5).blk t).view.emb (ix2 p q) = ix2 (rowOf t p) q := by
  obtain ⟨-, -, -, -, -, -, -, -, -, e0, e1⟩ := blockIndex t
  refine funext fun a => Fin.ext ?_
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-! ## What a point writes back, and the whole array -/

/-- Point t writes back block t of the layer's whole-array function of the operand arrays as the call finds them. -/
theorem flushed_eq (c : Dev nD) (t : Fin cfg1.N) :
    (dat1 V c).flushed 5 t
      = ((cfg1.win 5).blk t).view.read (Elt Ideal) (output (V c main_v36) (V c main_v23) (V c main_v37) (V c main_v38) (V c main_v39)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  funext j
  obtain ⟨p, q, rfl⟩ : ∃ (p : Fin 5000) (q : Fin 128), j = ix2 p q := ⟨j 0, j 1, eq_ix2 j⟩
  refine (Layer.plainLayer_apply (iblk1 V c 0 t) (iblk1 V c 1 t) (iblk1 V c 2 t) (iblk1 V c 3 t) (iblk1 V c 4 t) p q).trans ?_
  show _ = output (V c main_v36) (V c main_v23) (V c main_v37) (V c main_v38) (V c main_v39) (((cfg1.win 5).blk t).view.emb (ix2 p q))
  rw [resultBlock t p q]
  unfold output
  simp only [aggrBlock V c t p, featBlock V c t p, relWeightBlock V c t, biasBlock V c t, rootWeightBlock V c t]

/-- An index of the result array is in point t's block iff each coordinate is in the block's range on its axis. -/
theorem mem_block (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- The 20 blocks of 5000 rows cover the 100000 rows: row n is in the block of point n / 5000. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := by rw [show cfg1.N = 20 from N_1]; omega
  refine ⟨⟨(i 0).val / 5000, hN⟩, flush1_5 _, ?_⟩
  obtain ⟨-, -, -, -, -, -, -, -, -, e0, e1⟩ := blockIndex ⟨(i 0).val / 5000, hN⟩
  rw [mem_block]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e1]; omega

/-- THE RESULT ARRAY after the call: the layer's function of the operand arrays as the call finds them. -/
theorem result_eq (c : Dev nD) :
    (dat1 V c).arrAt 5 cfg1.N = output (V c main_v36) (V c main_v23) (V c main_v37) (V c main_v38) (V c main_v39) :=
  (dat1 V c).arrAt_eq_of_cover 5 _ (fun t _ => flushed_eq V c t) covered

end Cert.KernelIdeal.OutputLayer

end
-- ==== Proof.ForwardSpec.lean ====
/-
  The kernel's forward pass as ONE function of its nine argument arrays (at the ideal values).

  Two weighted GraphConv layers over one edge list. With  src = edge_index[0],  dst = edge_index[1]  and the edge gate
  g = 1 / (1 + exp(-edge_weight)),  message passing sends a node-feature array h to
      messages h = segment_sum over dst of (h[src] · g),
  a gather by (sign-normalised) source, a row scaling, and a scatter-add into zeros by destination. Then
      hid = max(messages x · W_rel1 + b_rel1 + x · W_root1, 0)               (first pallas_call)
      out = messages hid · pad W_rel2 + pad b_rel2 + hid · pad W_root2        (second pallas_call, 128 columns)
  with the layer-2 weights and bias padded by zeros from 64 to 128 columns, and the result is columns 0 … 63 of out.
  The gather, the scatter-add and the gate are the host's own operations and are never opened: both programs apply
  the same ones, so they are carried as they stand.
-/
import proofs.«402895_j81071802679527_4_alg».proof.Proof.HiddenLayer
import proofs.«402895_j81071802679527_4_alg».proof.Proof.OutputLayer

noncomputable section

namespace Cert.KernelIdeal.Forward

open Cert.KernelIdeal Cert.KernelIdeal.Gen Idealize.ShloMosaic Idealize.ShloMosaic.TcCoe

/-- Row 0 of the edge list: each edge's source node. -/
def source (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- Row 1 of the edge list: each edge's destination node. -/
def target (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The edge gate, the logistic function of the edge weight: 1 / (1 + exp(-w)). -/
def gate (w : (⟨S1600000, .f32⟩ : BufTy).Contents (Elt Ideal)) : (⟨S1600000, .f32⟩ : BufTy).Contents (Elt Ideal) :=
  Host.divf (broadcastInDim S1600000 ![] bcast_S_S1600000 (constant (F := Ideal) S_ .f32 0x3F800000#32))
    (addf (broadcastInDim S1600000 ![] bcast_S_S1600000 (constant (F := Ideal) S_ .f32 0x3F800000#32)) (Host.exp (Host.negf w)))

/-- Message passing: gather the rows of `h` at the edges' sources (a negative index counted from the end), scale each
    by its edge's gate, and add them into a zero array at the edges' destinations. -/
def messages (h : (⟨S100000x128, .f32⟩ : BufTy).Contents (Elt Ideal)) (src dst : (⟨S1600000, .i32⟩ : BufTy).Contents (Elt Ideal))
    (g : (⟨S1600000, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1 (broadcastInDim S1600000x1 ![0] bcast_S1600000_S1600000x1_0 g)))

/-- A [128, 64] weight padded with (the float of the integer) zero to 128 columns. -/
def padColumns (W : (⟨S128x64, .f32⟩ : BufTy).Contents (Elt Ideal)) : (⟨S128x128, .f32⟩ : BufTy).Contents (Elt Ideal) :=
  pad S128x128 ![0, 0] ![0, 64] ![0, 0] W (sitofp (F := Ideal) .f32 (constantI S_ 32 0#32)) pads_S128x64_S128x128_000_0640 h_S_

/-- A [64] bias padded with zero to 128 entries. -/
def padBias (b : (⟨S64, .f32⟩ : BufTy).Contents (Elt Ideal)) : (⟨S128, .f32⟩ : BufTy).Contents (Elt Ideal) :=
  pad S128 ![0] ![64] ![0] b (sitofp (F := Ideal) .f32 (constantI S_ 32 0#32)) pads_S64_S128_0640 h_S_

/-- The hidden layer's activations, as a function of the arguments. -/
def hiddenOf (x : (⟨S100000x128, .f32⟩ : BufTy).Contents (Elt Ideal)) (w : (⟨S1600000, .f32⟩ : BufTy).Contents (Elt Ideal))
    (e : (⟨S2x1600000, .i32⟩ : BufTy).Contents (Elt Ideal)) (Wrel1 : (⟨S128x128, .f32⟩ : BufTy).Contents (Elt Ideal))
    (brel1 : (⟨S128, .f32⟩ : BufTy).Contents (Elt Ideal)) (Wroot1 : (⟨S128x128, .f32⟩ : BufTy).Contents (Elt Ideal)) :
    (⟨S100000x128, .f32⟩ : BufTy).Contents (Elt Ideal) :=
  HiddenLayer.hidden (messages x (source e) (target e) (gate w)) x Wrel1 brel1 Wroot1

/-- The second call's 128-column result, as a function of the arguments. -/
def wideOutputOf (x : (⟨S100000x128, .f32⟩ : BufTy).Contents (Elt Ideal)) (w : (⟨S1600000, .f32⟩ : BufTy).Contents (Elt Ideal))
    (e : (⟨S2x1600000, .i32⟩ : BufTy).Contents (Elt Ideal)) (Wrel1 : (⟨S128x128, .f32⟩ : BufTy).Contents (Elt Ideal))
    (brel1 : (⟨S128, .f32⟩ : BufTy).Contents (Elt Ideal)) (Wroot1 : (⟨S128x128, .f32⟩ : BufTy).Contents (Elt Ideal))
    (Wrel2 : (⟨S128x64, .f32⟩ : BufTy).Contents (Elt Ideal)) (brel2 : (⟨S64, .f32⟩ : BufTy).Contents (Elt Ideal))
    (Wroot2 : (⟨S128x64, .f32⟩ : BufTy).Contents (Elt Ideal)) : (⟨S100000x128, .f32⟩ : BufTy).Contents (Elt Ideal) :=
  OutputLayer.output (messages (hiddenOf x w e Wrel1 brel1 Wroot1) (source e) (target e) (gate w)) (hiddenOf x w e Wrel1 brel1 Wroot1)
    (padColumns Wrel2) (padBias brel2) (padColumns Wroot2)

/-- The kernel's result: columns 0 … 63 of the second call's result. -/
def forward (x : (⟨S100000x128, .f32⟩ : BufTy).Contents (Elt Ideal)) (w : (⟨S1600000, .f32⟩ : BufTy).Contents (Elt Ideal))
    (e : (⟨S2x1600000, .i32⟩ : BufTy).Contents (Elt Ideal)) (Wrel1 : (⟨S128x128, .f32⟩ : BufTy).Contents (Elt Ideal))
    (brel1 : (⟨S128, .f32⟩ : BufTy).Contents (Elt Ideal)) (Wroot1 : (⟨S128x128, .f32⟩ : BufTy).Contents (Elt Ideal))
    (Wrel2 : (⟨S128x64, .f32⟩ : BufTy).Contents (Elt Ideal)) (brel2 : (⟨S64, .f32⟩ : BufTy).Contents (Elt Ideal))
    (Wroot2 : (⟨S128x64, .f32⟩ : BufTy).Contents (Elt Ideal)) : (⟨S100000x64, .f32⟩ : BufTy).Contents (Elt Ideal) :=
  extractStridedSlice S100000x64 ![0, 0] (wideOutputOf x w e Wrel1 brel1 Wroot1 Wrel2 brel2 Wroot2) slices_S100000x128_S100000x64_0_0

end Cert.KernelIdeal.Forward

end
-- ==== Proof.KernelForward.lean ====
/-
  The kernel's run, read: its result buffer ends at the forward pass of its argument arrays.

  @main is a chain of host stretches and the two pallas_calls, and the buffer contents at each boundary are a fold
  from the launch memory. Read backwards from the result: the last stretch slices columns 0 … 63 out of the second
  call's result array; that array is the output layer of the arrays the second call is entered with — the messages
  of the hidden activations, the hidden activations, and the padded layer-2 weights and bias, all written by the
  stretches between the calls from what the first call left; what the first call left is the hidden layer of the
  arrays it was entered with — the messages of x and the untouched arguments, written by the first stretch from
  the launch memory.
-/
import proofs.«402895_j81071802679527_4_alg».proof.Proof.KernelResultRun
import proofs.«402895_j81071802679527_4_alg».proof.Proof.ForwardSpec

set_option maxRecDepth 16384

noncomputable section

namespace Cert.KernelIdeal.Forward

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The first call's entry: the first stretch over the launch memory -/

set_option maxHeartbeats 1000000 in
theorem entry1_messages (c : Dev nD) :
    W1 m ρ c (Proc.devRef .tc main_v22) = messages (m ((c : Thread nD τ).loc main_arg0)) (source (m ((c : Thread nD τ).loc main_arg2))) (target (m ((c : Thread nD τ).loc main_arg2))) (gate (m ((c : Thread nD τ).loc main_arg1))) := by
  dsimp only [W1, hostOps0]
  after_results_simp
  rfl

set_option maxHeartbeats 1000000 in
theorem entry1_source (c : Dev nD) : W1 m ρ c (Proc.devRef .tc main_v1) = source (m ((c : Thread nD τ).loc main_arg2)) := by
  dsimp only [W1, hostOps0]
  after_results_simp
  rfl

set_option maxHeartbeats 1000000 in
theorem entry1_target (c : Dev nD) : W1 m ρ c (Proc.devRef .tc main_v3) = target (m ((c : Thread nD τ).loc main_arg2)) := by
  dsimp only [W1, hostOps0]
  after_results_simp
  rfl

set_option maxHeartbeats 1000000 in
theorem entry1_gate (c : Dev nD) : W1 m ρ c (Proc.devRef .tc main_v9) = gate (m ((c : Thread nD τ).loc main_arg1)) := by
  dsimp only [W1, hostOps0]
  after_results_simp
  rfl

set_option maxHeartbeats 1000000 in
theorem entry1_arg0 (c : Dev nD) : W1 m ρ c (Proc.devRef .tc main_arg0) = (m ((c : Thread nD τ).loc main_arg0)) := by
  dsimp only [W1, hostOps0]
  after_results_simp

set_option maxHeartbeats 1000000 in
theorem entry1_arg3 (c : Dev nD) : W1 m ρ c (Proc.devRef .tc main_arg3) = (m ((c : Thread nD τ).loc main_arg3)) := by
  dsimp only [W1, hostOps0]
  after_results_simp

set_option maxHeartbeats 1000000 in
theorem entry1_arg4 (c : Dev nD) : W1 m ρ c (Proc.devRef .tc main_arg4) = (m ((c : Thread nD τ).loc main_arg4)) := by
  dsimp only [W1, hostOps0]
  after_results_simp

set_option maxHeartbeats 1000000 in
theorem entry1_arg5 (c : Dev nD) : W1 m ρ c (Proc.devRef .tc main_arg5) = (m ((c : Thread nD τ).loc main_arg5)) := by
  dsimp only [W1, hostOps0]
  after_results_simp

set_option maxHeartbeats 1000000 in
theorem entry1_arg6 (c : Dev nD) : W1 m ρ c (Proc.devRef .tc main_arg6) = (m ((c : Thread nD τ).loc main_arg6)) := by
  dsimp only [W1, hostOps0]
  after_results_simp

set_option maxHeartbeats 1000000 in
theorem entry1_arg7 (c : Dev nD) : W1 m ρ c (Proc.devRef .tc main_arg7) = (m ((c : Thread nD τ).loc main_arg7)) := by
  dsimp only [W1, hostOps0]
  after_results_simp

set_option maxHeartbeats 1000000 in
theorem entry1_arg8 (c : Dev nD) : W1 m ρ c (Proc.devRef .tc main_arg8) = (m ((c : Thread nD τ).loc main_arg8)) := by
  dsimp only [W1, hostOps0]
  after_results_simp

/-! ## What the first call leaves -/

/-- The first call's result array is the hidden layer of the arguments. -/
theorem hidden_eq (c : Dev nD) :
    W2 m ρ c (Proc.devRef .tc main_v23) = hiddenOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((HiddenLayer.result_eq (V1 m ρ) c).trans ?_)
  show HiddenLayer.hidden (W1 m ρ c (Proc.devRef .tc main_v22)) (W1 m ρ c (Proc.devRef .tc main_arg0)) (W1 m ρ c (Proc.devRef .tc main_arg3)) (W1 m ρ c (Proc.devRef .tc main_arg4)) (W1 m ρ c (Proc.devRef .tc main_arg5)) = _
  rw [entry1_messages, entry1_arg0, entry1_arg3, entry1_arg4, entry1_arg5]
  rfl

theorem kept_source (c : Dev nD) : W2 m ρ c (Proc.devRef .tc main_v1) = source (m ((c : Thread nD τ).loc main_arg2)) :=
  (W2_of_ne m ρ c main_v1 (by decide)).trans (entry1_source m ρ c)
theorem kept_target (c : Dev nD) : W2 m ρ c (Proc.devRef .tc main_v3) = target (m ((c : Thread nD τ).loc main_arg2)) :=
  (W2_of_ne m ρ c main_v3 (by decide)).trans (entry1_target m ρ c)
theorem kept_gate (c : Dev nD) : W2 m ρ c (Proc.devRef .tc main_v9) = gate (m ((c : Thread nD τ).loc main_arg1)) :=
  (W2_of_ne m ρ c main_v9 (by decide)).trans (entry1_gate m ρ c)
theorem kept_arg6 (c : Dev nD) : W2 m ρ c (Proc.devRef .tc main_arg6) = (m ((c : Thread nD τ).loc main_arg6)) :=
  (W2_of_ne m ρ c main_arg6 (by decide)).trans (entry1_arg6 m ρ c)
theorem kept_arg7 (c : Dev nD) : W2 m ρ c (Proc.devRef .tc main_arg7) = (m ((c : Thread nD τ).loc main_arg7)) :=
  (W2_of_ne m ρ c main_arg7 (by decide)).trans (entry1_arg7 m ρ c)
theorem kept_arg8 (c : Dev nD) : W2 m ρ c (Proc.devRef .tc main_arg8) = (m ((c : Thread nD τ).loc main_arg8)) :=
  (W2_of_ne m ρ c main_arg8 (by decide)).trans (entry1_arg8 m ρ c)

/-! ## The second call's entry: the stretches between the calls over what the first call left -/

set_option maxHeartbeats 2000000 in
theorem entry2_messages (c : Dev nD) :
    W8 m ρ c (Proc.devRef .tc main_v36) = messages (W2 m ρ c (Proc.devRef .tc main_v23)) (W2 m ρ c (Proc.devRef .tc main_v1)) (W2 m ρ c (Proc.devRef .tc main_v3)) (W2 m ρ c (Proc.devRef .tc main_v9)) := by
  dsimp only [W8, W7, W6, W5, W4, W3, hostOps1_5, hostOps1_4, hostOps1_3, hostOps1_2, hostOps1_1, hostOps1]
  after_results_simp
  rfl

set_option maxHeartbeats 2000000 in
theorem entry2_hidden (c : Dev nD) : W8 m ρ c (Proc.devRef .tc main_v23) = W2 m ρ c (Proc.devRef .tc main_v23) := by
  dsimp only [W8, W7, W6, W5, W4, W3, hostOps1_5, hostOps1_4, hostOps1_3, hostOps1_2, hostOps1_1, hostOps1]
  after_results_simp

set_option maxHeartbeats 2000000 in
theorem entry2_relWeight (c : Dev nD) : W8 m ρ c (Proc.devRef .tc main_v37) = padColumns (W2 m ρ c (Proc.devRef .tc main_arg6)) := by
  dsimp only [W8, W7, W6, W5, W4, W3, hostOps1_5, hostOps1_4, hostOps1_3, hostOps1_2, hostOps1_1, hostOps1]
  after_results_simp
  rfl

set_option maxHeartbeats 2000000 in
theorem entry2_bias (c : Dev nD) : W8 m ρ c (Proc.devRef .tc main_v38) = padBias (W2 m ρ c (Proc.devRef .tc main_arg7)) := by
  dsimp only [W8, W7, W6, W5, W4, W3, hostOps1_5, hostOps1_4, hostOps1_3, hostOps1_2, hostOps1_1, hostOps1]
  after_results_simp
  rfl

set_option maxHeartbeats 2000000 in
theorem entry2_rootWeight (c : Dev nD) : W8 m ρ c (Proc.devRef .tc main_v39) = padColumns (W2 m ρ c (Proc.devRef .tc main_arg8)) := by
  dsimp only [W8, W7, W6, W5, W4, W3, hostOps1_5, hostOps1_4, hostOps1_3, hostOps1_2, hostOps1_1, hostOps1]
  after_results_simp
  rfl

/-! ## What the second call leaves, and the result -/

/-- The second call's result array is the 128-column output layer of the arguments. -/
theorem wide_eq (c : Dev nD) :
    W9 m ρ c (Proc.devRef .tc main_v40) = wideOutputOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 5).trans ((OutputLayer.result_eq (V8 m ρ) c).trans ?_)
  show OutputLayer.output (W8 m ρ c (Proc.devRef .tc main_v36)) (W8 m ρ c (Proc.devRef .tc main_v23)) (W8 m ρ c (Proc.devRef .tc main_v37)) (W8 m ρ c (Proc.devRef .tc main_v38)) (W8 m ρ c (Proc.devRef .tc main_v39)) = _
  rw [entry2_messages, entry2_hidden, entry2_relWeight, entry2_bias, entry2_rootWeight,
    hidden_eq, kept_source, kept_target, kept_gate, kept_arg6, kept_arg7, kept_arg8]
  rfl

/-- The result buffer at the last boundary: the forward pass of the arguments. -/
theorem result_eq (c : Dev nD) :
    W10 m ρ c (Proc.devRef .tc main_v41) = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h : W10 m ρ c (Proc.devRef .tc main_v41)
      = extractStridedSlice S100000x64 ![0, 0] (W9 m ρ c (Proc.devRef .tc main_v40)) slices_S100000x128_S100000x64_0_0 := by
    show StableHlo.after hostOps2 (W9 m ρ c) (Proc.devRef .tc main_v41) = _
    dsimp only [hostOps2]
    after_results
  rw [h, wide_eq]
  rfl

/-- THE KERNEL'S RUN: every weakly fair execution terminates with the result buffer at the forward pass of the
    argument arrays, the arguments unchanged. -/
theorem run : θ_run defs (onTc (τ := τ) (main (F := Ideal))) ⟨m, fun _ => 0, ρ⟩ (fun r => ∀ c : Dev nD,
      r.2.mem ((c.tc : Thread nD τ).loc main_v41) = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (ResultRun.run_result (F := Ideal) m ρ)

end Cert.KernelIdeal.Forward

end
-- ==== Proof.ForwardAt.lean ====
/-
  The forward pass read at an entry.

  Entry (n, j) of the hidden activations is  max((∑ₖ messages x [n,k] · W_rel1[k,j]) + b_rel1[j] + (∑ₖ x[n,k] · W_root1[k,j]), 0).
  Entry (n, j), j < 64, of the result reads column j of the 128-column second call; there the padded weights and bias
  are the unpadded ones (the zero columns 64 … 127 are never read), so it is
      (∑ₖ messages hid [n,k] · W_rel2[k,j]) + b_rel2[j] + (∑ₖ hid[n,k] · W_root2[k,j]).
-/
import proofs.«402895_j81071802679527_4_alg».proof.Proof.ForwardSpec
import Idealize.ShloMosaic.Lib.KernelVsHost

noncomputable section

namespace Cert.KernelIdeal.Forward

open Cert.KernelIdeal Cert.KernelIdeal.Gen Idealize.ShloMosaic Idealize.ShloMosaic.TcCoe Idealize.ShloMosaic.ValueIdx

/-- A column j < 64 of the padded weight is that column of the weight. -/
theorem padColumns_apply (W : (⟨S128x64, .f32⟩ : BufTy).Contents (Elt Ideal)) (k : Fin 128) (q : Fin 64) :
    padColumns W (ix2 k (⟨q.val, by omega⟩ : Fin 128)) = W (ix2 k q) := by
  unfold padColumns
  exact pad_apply_of_inside ![0, 0] ![0, 64] ![0, 0] W _ pads_S128x64_S128x128_000_0640 h_S_ (ix2 k (⟨q.val, by omega⟩ : Fin 128)) (ix2 k q)
    (fun a => match a with
      | ⟨0, _⟩ => by show k.val = 0 + k.val * (0 + 1); omega
      | ⟨1, _⟩ => by show q.val = 0 + q.val * (0 + 1); omega)

/-- An entry j < 64 of the padded bias is that entry of the bias. -/
theorem padBias_apply (b : (⟨S64, .f32⟩ : BufTy).Contents (Elt Ideal)) (q : Fin 64) :
    padBias b (ix1 (⟨q.val, by omega⟩ : Fin 128)) = b (ix1 q) := by
  unfold padBias
  exact pad_apply_of_inside ![0] ![64] ![0] b _ pads_S64_S128_0640 h_S_ (ix1 (⟨q.val, by omega⟩ : Fin 128)) (ix1 q)
    (fun a => match a with
      | ⟨0, _⟩ => by show q.val = 0 + q.val * (0 + 1); omega)

/-- The hidden activations at entry (n, j). -/
theorem hiddenOf_apply (x : (⟨S100000x128, .f32⟩ : BufTy).Contents (Elt Ideal)) (w : (⟨S1600000, .f32⟩ : BufTy).Contents (Elt Ideal)) (e : (⟨S2x1600000, .i32⟩ : BufTy).Contents (Elt Ideal))
    (Wrel1 : (⟨S128x128, .f32⟩ : BufTy).Contents (Elt Ideal)) (brel1 : (⟨S128, .f32⟩ : BufTy).Contents (Elt Ideal)) (Wroot1 : (⟨S128x128, .f32⟩ : BufTy).Contents (Elt Ideal)) (n : Fin 100000) (j : Fin 128) :
    hiddenOf x w e Wrel1 brel1 Wroot1 (ix2 n j)
      = max (((∑ k : Fin 128, messages x (source e) (target e) (gate w) (ix2 n k) * Wrel1 (ix2 k j)) + brel1 (ix1 j))
          + ∑ k : Fin 128, x (ix2 n k) * Wroot1 (ix2 k j)) (Ideal.ofBits .f32 0x00000000#32) := rfl

/-- The result at entry (n, j), j < 64. -/
theorem forward_apply (x : (⟨S100000x128, .f32⟩ : BufTy).Contents (Elt Ideal)) (w : (⟨S1600000, .f32⟩ : BufTy).Contents (Elt Ideal)) (e : (⟨S2x1600000, .i32⟩ : BufTy).Contents (Elt Ideal))
    (Wrel1 : (⟨S128x128, .f32⟩ : BufTy).Contents (Elt Ideal)) (brel1 : (⟨S128, .f32⟩ : BufTy).Contents (Elt Ideal)) (Wroot1 : (⟨S128x128, .f32⟩ : BufTy).Contents (Elt Ideal))
    (Wrel2 : (⟨S128x64, .f32⟩ : BufTy).Contents (Elt Ideal)) (brel2 : (⟨S64, .f32⟩ : BufTy).Contents (Elt Ideal)) (Wroot2 : (⟨S128x64, .f32⟩ : BufTy).Contents (Elt Ideal)) (n : Fin 100000) (j : Fin 64) :
    forward x w e Wrel1 brel1 Wroot1 Wrel2 brel2 Wroot2 (ix2 n j)
      = ((∑ k : Fin 128, messages (hiddenOf x w e Wrel1 brel1 Wroot1) (source e) (target e) (gate w) (ix2 n k) * Wrel2 (ix2 k j)) + brel2 (ix1 j))
          + ∑ k : Fin 128, hiddenOf x w e Wrel1 brel1 Wroot1 (ix2 n k) * Wroot2 (ix2 k j) := by
  unfold forward
  rw [extractStridedSlice_apply ![0, 0] _ slices_S100000x128_S100000x64_0_0 (ix2 n j) (ix2 n (⟨j.val, by omega⟩ : Fin 128))
    (fun a => match a with
      | ⟨0, _⟩ => by show n.val = 0 + n.val; omega
      | ⟨1, _⟩ => by show j.val = 0 + j.val; omega)]
  show ((∑ k : Fin 128, messages (hiddenOf x w e Wrel1 brel1 Wroot1) (source e) (target e) (gate w) (ix2 n k) * padColumns Wrel2 (ix2 k (⟨j.val, by omega⟩ : Fin 128)))
      + padBias brel2 (ix1 (⟨j.val, by omega⟩ : Fin 128)))
      + ∑ k : Fin 128, hiddenOf x w e Wrel1 brel1 Wroot1 (ix2 n k) * padColumns Wroot2 (ix2 k (⟨j.val, by omega⟩ : Fin 128)) = _
  simp only [padColumns_apply, padBias_apply]

end Cert.KernelIdeal.Forward

end
-- ==== Proof.RefForward.lean ====
/-
  The reference computes the same forward pass.

  The reference applies the same host operations as the kernel for the edge gate, the gathers and the scatter-adds
  (so its aggregated messages are `messages` of the same arrays), and computes each layer by whole-array products:
      hid = max(messages x · W_rel1 + b_rel1 + x · W_root1, 0),   out = messages hid · W_rel2 + b_rel2 + hid · W_root2.
  At the ideal values a product's entry (n, j) is the sum over k of row n against column j, the same sum the
  kernel's blocks compute; so entry by entry the hidden activations agree, hence the second round of messages (the
  same function of equal arrays), hence the results.
-/
import proofs.«402895_j81071802679527_4_alg».proof.Proof.Gen.ReferenceIdeal.Read
import proofs.«402895_j81071802679527_4_alg».proof.Proof.ForwardAt

noncomputable section

namespace Cert.ReferenceIdeal.SameForward

open Cert.ReferenceIdeal Cert.ReferenceIdeal.Gen Cert.ReferenceIdeal.Read Idealize.ShloMosaic Idealize.ShloMosaic.TcCoe Idealize.ShloMosaic.ValueIdx
open Cert.KernelIdeal.Forward (messages source target gate hiddenOf forward hiddenOf_apply forward_apply)

/-- The reference's first aggregation is the messages of x. -/
theorem messages_x (x0 : (⟨S100000x128, .f32⟩ : BufTy).Contents (Elt Ideal)) (x1 : (⟨S1600000, .f32⟩ : BufTy).Contents (Elt Ideal)) (x2 : (⟨S2x1600000, .i32⟩ : BufTy).Contents (Elt Ideal)) :
    val_main_v22 (F := Ideal) x0 x1 x2 = messages x0 (source x2) (target x2) (gate x1) := rfl

/-- The reference's hidden activations are the kernel's, entry by entry. -/
theorem hidden_same (x0 : (⟨S100000x128, .f32⟩ : BufTy).Contents (Elt Ideal)) (x1 : (⟨S1600000, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v29 (F := Ideal) x0 x1 x2 x3 x4 x5 = hiddenOf x0 x1 x2 x3 x4 x5 := by
  funext i
  obtain ⟨n, j, rfl⟩ : ∃ (n : Fin 100000) (j : Fin 128), i = ix2 n j := ⟨i 0, i 1, eq_ix2 i⟩
  rw [hiddenOf_apply, val_main_v29_apply, val_main_v28_apply, val_main_v26_apply, val_main_v23_apply, val_main_v27_apply,
    val_main_v25_apply, val_main_v24_apply, val_main_call0_v0_apply, val_main_call0_cst_apply, messages_x]
  have l23 : ∀ k : Fin 128, lidx_main_v23 (ix2 n j) k = ix2 n k := fun k => funext fun a => Fin.ext (by
    match a with
    | ⟨0, _⟩ => rfl
    | ⟨1, _⟩ => rfl)
  have r23 : ∀ k : Fin 128, ridx_main_v23 (ix2 n j) k = ix2 k j := fun k => funext fun a => Fin.ext (by
    match a with
    | ⟨0, _⟩ => rfl
    | ⟨1, _⟩ => rfl)
  have l27 : ∀ k : Fin 128, lidx_main_v27 (ix2 n j) k = ix2 n k := fun k => funext fun a => Fin.ext (by
    match a with
    | ⟨0, _⟩ => rfl
    | ⟨1, _⟩ => rfl)
  have r27 : ∀ k : Fin 128, ridx_main_v27 (ix2 n j) k = ix2 k j := fun k => funext fun a => Fin.ext (by
    match a with
    | ⟨0, _⟩ => rfl
    | ⟨1, _⟩ => rfl)
  have b24 : idx_main_v24 (idx_main_v25 (ix2 n j)) = ix1 j := funext fun a => Fin.ext (by
    match a with
    | ⟨0, _⟩ => rfl)
  simp only [l23, r23, l27, r27, b24]
  rfl

/-- The reference's second aggregation is the messages of the hidden activations. -/
theorem messages_hidden (x0 : (⟨S100000x128, .f32⟩ : BufTy).Contents (Elt Ideal)) (x1 : (⟨S1600000, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v42 (F := Ideal) x0 x1 x2 x3 x4 x5 = messages (val_main_v29 (F := Ideal) x0 x1 x2 x3 x4 x5) (source x2) (target x2) (gate x1) := rfl

/-- THE REFERENCE'S RESULT is the kernel's forward pass of the same arguments. -/
theorem result_same (x0 : (⟨S100000x128, .f32⟩ : BufTy).Contents (Elt Ideal)) (x1 : (⟨S1600000, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) :
    val_main_v48 (F := Ideal) x0 x1 x2 x3 x4 x5 x6 x7 x8 = forward x0 x1 x2 x3 x4 x5 x6 x7 x8 := by
  funext i
  obtain ⟨n, j, rfl⟩ : ∃ (n : Fin 100000) (j : Fin 64), i = ix2 n j := ⟨i 0, i 1, eq_ix2 i⟩
  rw [forward_apply, val_main_v48_apply, val_main_v46_apply, val_main_v43_apply, val_main_v47_apply,
    val_main_v45_apply, val_main_v44_apply, messages_hidden, hidden_same]
  have l43 : ∀ k : Fin 128, lidx_main_v43 (ix2 n j) k = ix2 n k := fun k => funext fun a => Fin.ext (by
    match a with
    | ⟨0, _⟩ => rfl
    | ⟨1, _⟩ => rfl)
  have r43 : ∀ k : Fin 128, ridx_main_v43 (ix2 n j) k = ix2 k j := fun k => funext fun a => Fin.ext (by
    match a with
    | ⟨0, _⟩ => rfl
    | ⟨1, _⟩ => rfl)
  have l47 : ∀ k : Fin 128, lidx_main_v47 (ix2 n j) k = ix2 n k := fun k => funext fun a => Fin.ext (by
    match a with
    | ⟨0, _⟩ => rfl
    | ⟨1, _⟩ => rfl)
  have r47 : ∀ k : Fin 128, ridx_main_v47 (ix2 n j) k = ix2 k j := fun k => funext fun a => Fin.ext (by
    match a with
    | ⟨0, _⟩ => rfl
    | ⟨1, _⟩ => rfl)
  have b44 : idx_main_v44 (idx_main_v45 (ix2 n j)) = ix1 j := funext fun a => Fin.ext (by
    match a with
    | ⟨0, _⟩ => rfl)
  simp only [l43, r43, l47, r47, b44]
  rfl

end Cert.ReferenceIdeal.SameForward

end
-- ==== Proof.lean ====
/-
  The certificate of the two-layer weighted GraphConv encoder: the Pallas kernel against its jnp reference, over
  the extended reals.

  The kernel keeps the reference's message passing (gather by source, scale by the logistic edge gate, segment-sum
  by destination) on the host, operation for operation, and moves each layer's linear part — aggr · W_rel + b_rel +
  h · W_root, with max(·, 0) after the first — into a pallas_call over 20 blocks of 5000 node rows; the second
  layer's weights and bias are zero-padded from 64 to 128 columns for the call and the result's first 64 columns
  are kept. At the ideal values a blocked product is the same sum of products, entry by entry, as the whole-array
  product, and the padded columns are never read, so both programs end at ONE function of the nine arguments
  (`Cert.KernelIdeal.Forward.forward`): the kernel by reading its run boundary by boundary (Proof/KernelForward.lean,
  over the two calls' block-to-array modules), the reference by reading its composed term one operation at a time
  (Proof/RefForward.lean). No algebraic law beyond re-indexing a finite sum is used, so the precondition (finite
  inputs) is never opened. The frames of the two kernel programs are the generated ones; the reference's frame is
  its run with the result dropped; the ideal pass rewrote nothing, so `preserves` is `True`.
-/
import proofs.«402895_j81071802679527_4_alg».proof.Defs
import proofs.«402895_j81071802679527_4_alg».proof.Proof.Gen.Kernel
import proofs.«402895_j81071802679527_4_alg».proof.Proof.Gen.Kernel.Skeleton
import proofs.«402895_j81071802679527_4_alg».proof.Proof.Gen.Kernel.Launch
import proofs.«402895_j81071802679527_4_alg».proof.Proof.Gen.Kernel.Points
import proofs.«402895_j81071802679527_4_alg».proof.Proof.Gen.Kernel.Frame
import proofs.«402895_j81071802679527_4_alg».proof.Proof.Gen.KernelIdeal
import proofs.«402895_j81071802679527_4_alg».proof.Proof.Gen.KernelIdeal.Skeleton
import proofs.«402895_j81071802679527_4_alg».proof.Proof.Gen.KernelIdeal.Launch
import proofs.«402895_j81071802679527_4_alg».proof.Proof.Gen.KernelIdeal.Points
import proofs.«402895_j81071802679527_4_alg».proof.Proof.Gen.KernelIdeal.Frame
import proofs.«402895_j81071802679527_4_alg».proof.Proof.Gen.ReferenceIdeal
import proofs.«402895_j81071802679527_4_alg».proof.Proof.Gen.ReferenceIdeal.Run
import proofs.«402895_j81071802679527_4_alg».proof.Proof.Gen.ReferenceIdeal.Read
import proofs.«402895_j81071802679527_4_alg».proof.Proof.Gen.Pre_finite_inputs
import proofs.«402895_j81071802679527_4_alg».proof.Proof.KernelForward
import proofs.«402895_j81071802679527_4_alg».proof.Proof.RefForward
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the forward pass of arguments that agree. -/
theorem algebraic : Cert.algebraic_KernelIdeal_ReferenceIdeal := by
  intro m ρ m' ρ' _ hagree
  refine ⟨fun c => Cert.KernelIdeal.Forward.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Forward.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v48_eq, Cert.ReferenceIdeal.SameForward.result_same, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
